-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x8 : S_.BroadcastsInDim S8192x8 (![] : Fin 0 → Fin S8192x8.rank)
  reducesTo_S8192x8_S_d0_1 : S8192x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S8x4 .f32) (main_arg5 : FVec F S4 .f32) (main_arg6 : FVec F S4x1 .f32) (main_arg7 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x4 .f32 := Host.absf main_arg4
  let main_cst_6 : FVec F S_ .f32 := constant S_ .f32 0x7F800000#32
  let main_v20 : FVec F S8x4 .f32 := broadcastInDim S8x4 ![] bcast_S_S8x4 main_cst_6
  let main_v21 : IVec S8x4 1 := cmpf .olt main_v19 main_v20
  let main_c_7 : IVec S_ 1 := constantI S_ 1 1#1
  let main_v22 : IVec S_ 1 := (fun x v => Host.reduce IntOp.andi x v reducesTo_S8x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x1 .f32 := Host.absf main_arg6
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S8192x512 .f32) (main_arg2 : FVec F S8192x8 .f32) (main_arg3 : FVec F S8 .f32) (main_arg4 : FVec F S8x4 .f32) (main_arg5 : FVec F S4 .f32) (main_arg6 : FVec F S4x1 .f32) (main_arg7 : FVec F S1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8 .f32 := Host.absf main_arg2
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_v13 main_v16
-- ==== Kernel.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S4096x1 : Shape := ⟨2, ![4096, 1]⟩
abbrev S1024x512 : Shape := ⟨2, ![1024, 512]⟩
abbrev S1024x8 : Shape := ⟨2, ![1024, 8]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S1x8 : Shape := ⟨2, ![1, 8]⟩
abbrev S1024x4 : Shape := ⟨2, ![1024, 4]⟩
abbrev S1x4 : Shape := ⟨2, ![1, 4]⟩
abbrev S1x1 : Shape := ⟨2, ![1, 1]⟩
abbrev S4096 : Shape := ⟨1, ![4096]⟩

abbrev nBuf : Space → Nat
  | .hbm => 10
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x8, .f32⟩
  | .hbm, ⟨3, _⟩ => ⟨S8, .f32⟩
  | .hbm, ⟨4, _⟩ => ⟨S8x4, .f32⟩
  | .hbm, ⟨5, _⟩ => ⟨S4, .f32⟩
  | .hbm, ⟨6, _⟩ => ⟨S4x1, .f32⟩
  | .hbm, ⟨7, _⟩ => ⟨S1, .f32⟩
  | .hbm, ⟨8, _⟩ => ⟨S4096x1, .f32⟩
  | .hbm, ⟨9, _⟩ => ⟨S4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x8, .f32⟩
  | .local _ .vmem, ⟨5, _⟩ => ⟨S1024x8, .f32⟩
  | .local _ .vmem, ⟨6, _⟩ => ⟨S8x4, .f32⟩
  | .local _ .vmem, ⟨7, _⟩ => ⟨S4x1, .f32⟩
  | .local _ .vmem, ⟨8, _⟩ => ⟨S8, .f32⟩
  | .local _ .vmem, ⟨9, _⟩ => ⟨S4, .f32⟩
  | .local _ .vmem, ⟨10, _⟩ => ⟨S1, .f32⟩
  | .local _ .vmem, ⟨11, _⟩ => ⟨S1024x1, .f32⟩
  | .local _ .vmem, ⟨12, _⟩ => ⟨S1024x1, .f32⟩
  | .local _ .vmem, ⟨13, _⟩ => ⟨S1024x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  dot_S1024x512_S1024x512_S1024x1024_1_1_0_0_n_n_wf : DotDims.WF S1024x512 S1024x512 S1024x1024 [1] [1] [0] [0] [] []
  dot_S1024x1024_S1024x8_S1024x8_1_0_0_1_n_n_wf : DotDims.WF S1024x1024 S1024x8 S1024x8 [1] [0] [0] [1] [] []
  dot_S1024x8_S8x4_S1024x4_1_0_0_1_n_n_wf : DotDims.WF S1024x8 S8x4 S1024x4 [1] [0] [0] [1] [] []
  dot_S1024x4_S4x1_S1024x1_1_0_0_1_n_n_wf : DotDims.WF S1024x4 S4x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .f32 = 32 ∨ (Rect.block (s := S8192x8) S1024x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4.size a ≤ S8x4.size a
  hwx0_3 : ∀ i : grid0.Coords, EltTy.bits .f32 = 32 ∨ (Rect.block (s := S8x4) S8x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1.size a ≤ S4x1.size a
  hwx0_4 : ∀ i : grid0.Coords, EltTy.bits .f32 = 32 ∨ (Rect.block (s := S4x1) S4x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x4_S1024x4_1_0_0_1_n_n : DotDims S1024x8 S8x4 S1024x4 where
  lhsContracting := [1]
  rhsContracting := [0]
  lhsNonContracting := [0]
  rhsNonContracting := [1]
  lhsBatch := []
  rhsBatch := []
  wf := dot_S1024x8_S8x4_S1024x4_1_0_0_1_n_n_wf
def dot_S1024x4_S4x1_S1024x1_1_0_0_1_n_n : DotDims S1024x4 S4x1 S1024x1 where
  lhsContracting := [1]
  rhsContracting := [0]
  lhsNonContracting := [0]
  rhsNonContracting := [1]
  lhsBatch := []
  rhsBatch := []
  wf := dot_S1024x4_S4x1_S1024x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S4x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x8192 : Shape := ⟨2, ![512, 8192]⟩
abbrev S4096x8 : Shape := ⟨2, ![4096, 8]⟩
abbrev S1x8 : Shape := ⟨2, ![1, 8]⟩
abbrev S4096x4 : Shape := ⟨2, ![4096, 4]⟩
abbrev S1x4 : Shape := ⟨2, ![1, 4]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x8, .f32⟩
  | .hbm, ⟨3, _⟩ => ⟨S8, .f32⟩
  | .hbm, ⟨4, _⟩ => ⟨S8x4, .f32⟩
  | .hbm, ⟨5, _⟩ => ⟨S4, .f32⟩
  | .hbm, ⟨6, _⟩ => ⟨S4x1, .f32⟩
  | .hbm, ⟨7, _⟩ => ⟨S1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S512x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x4, .f32⟩
  | .hbm, ⟨38, _⟩ => ⟨S1x4, .f32⟩
  | .hbm, ⟨39, _⟩ => ⟨S4096x4, .f32⟩
  | .hbm, ⟨40, _⟩ => ⟨S4096x4, .f32⟩
  | .hbm, ⟨41, _⟩ => ⟨S4096x4, .f32⟩
  | .hbm, ⟨42, _⟩ => ⟨S4096x1, .f32⟩
  | .hbm, ⟨43, _⟩ => ⟨S1x1, .f32⟩
  | .hbm, ⟨44, _⟩ => ⟨S4096x1, .f32⟩
  | .hbm, ⟨45, _⟩ => ⟨S4096x1, .f32⟩
  | .hbm, ⟨46, _⟩ => ⟨S4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x512_S512x8192_1_0 : S8192x512.Transposes [1, 0] S512x8192
  bcast_S_S4096x8192 : S_.BroadcastsInDim S4096x8192 (![] : Fin 0 → Fin S4096x8192.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x512_S512x8192_S4096x8192_1_0_0_1_n_n_wf : DotDims.WF S4096x512 S512x8192 S4096x8192 [1] [0] [0] [1] [] []
  dot_S4096x8192_S8192x8_S4096x8_1_0_0_1_n_n_wf : DotDims.WF S4096x8192 S8192x8 S4096x8 [1] [0] [0] [1] [] []
  dot_S4096x8_S8x4_S4096x4_1_0_0_1_n_n_wf : DotDims.WF S4096x8 S8x4 S4096x4 [1] [0] [0] [1] [] []
  dot_S4096x4_S4x1_S4096x1_1_0_0_1_n_n_wf : DotDims.WF S4096x4 S4x1 S4096x1 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def dot_S4096x8192_S8192x8_S4096x8_1_0_0_1_n_n : DotDims S4096x8192 S8192x8 S4096x8 where
  lhsContracting := [1]
  rhsContracting := [0]
  lhsNonContracting := [0]
  rhsNonContracting := [1]
  lhsBatch := []
  rhsBatch := []
  wf := dot_S4096x8192_S8192x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x4_S4x1_S4096x1_1_0_0_1_n_n : DotDims S4096x4 S4x1 S4096x1 where
  lhsContracting := [1]
  rhsContracting := [0]
  lhsNonContracting := [0]
  rhsNonContracting := [1]
  lhsBatch := []
  rhsBatch := []
  wf := dot_S4096x4_S4x1_S4096x1_1_0_0_1_n_n_wf

class Facts : Prop extends Facts₀ where

variable [Facts]
-- ==== Proof.Pieces.lean ====
/-
  What each kind of grid point leaves behind, as values.

  The body keeps a [1024, 8] accumulator across the eight train tiles of one block of test rows.  At a tile it
  adds to the accumulator the tile's contribution (the third payload of the printed body, a function of the two row
  blocks, the W1 tile and the accumulator it loads).  At the first tile the accumulator is first set to the zero
  block (the second payload) and read back; at the last tile the small network (the first payload) is applied to
  the accumulator just stored and the result is the output block.  Each statement below reads the stores the body's
  run found back through the whole-buffer rectangle: one covering store leaves its payload, a load after it reads
  that payload, and a load of an untouched buffer reads its contents.
-/
import proofs.«175474_j65481071399956_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- A middle tile: the accumulator it found plus the tile's contribution. -/
theorem acc_mid (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x8 .f32) (harg4 : arg4.IsWhole) (arg5 : Memref sig .tc .vmem S8x4 .f32) (harg5 : arg5.IsWhole) (arg6 : Memref sig .tc .vmem S4x1 .f32) (harg6 : arg6.IsWhole) (arg7 : Memref sig .tc .vmem S8 .f32) (harg7 : arg7.IsWhole) (arg8 : Memref sig .tc .vmem S4 .f32) (harg8 : arg8.IsWhole) (arg9 : Memref sig .tc .vmem S1 .f32) (harg9 : arg9.IsWhole) (arg10 : Memref sig .tc .vmem S1024x1 .f32) (harg10 : arg10.IsWhole) (arg11 : Memref sig .tc .vmem S1024x8 .f32) (harg11 : arg11.IsWhole) (hc0 : ¬cond0_0 i) (hc1 : ¬cond0_1 i) (x0 : Vec F S1024x512 .f32) (x1 : Vec F S1024x512 .f32) (x2 : Vec F S1024x8 .f32) (x3 : Vec F S8x4 .f32) (x4 : Vec F S4x1 .f32) (x5 : Vec F S8 .f32) (x6 : Vec F S4 .f32) (x7 : Vec F S1 .f32) (xs0 : Vec F S1024x8 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero zero2]
  simp only [View.readAt_eq_ld, harg2.read_unread, harg3.read_unread, harg4.read_unread, harg11.read_unread,
    View.ld_unit_zero (S := S1024x512) zero2, View.ld_unit_zero (S := S1024x8) zero2]

/-- The first tile: the zero block plus the tile's contribution. -/
theorem acc_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x8 .f32) (harg4 : arg4.IsWhole) (arg5 : Memref sig .tc .vmem S8x4 .f32) (harg5 : arg5.IsWhole) (arg6 : Memref sig .tc .vmem S4x1 .f32) (harg6 : arg6.IsWhole) (arg7 : Memref sig .tc .vmem S8 .f32) (harg7 : arg7.IsWhole) (arg8 : Memref sig .tc .vmem S4 .f32) (harg8 : arg8.IsWhole) (arg9 : Memref sig .tc .vmem S1 .f32) (harg9 : arg9.IsWhole) (arg10 : Memref sig .tc .vmem S1024x1 .f32) (harg10 : arg10.IsWhole) (arg11 : Memref sig .tc .vmem S1024x8 .f32) (harg11 : arg11.IsWhole) (hc0 : cond0_0 i) (hc1 : ¬cond0_1 i) (x0 : Vec F S1024x512 .f32) (x1 : Vec F S1024x512 .f32) (x2 : Vec F S1024x8 .f32) (x3 : Vec F S8x4 .f32) (x4 : Vec F S4x1 .f32) (x5 : Vec F S8 .f32) (x6 : Vec F S4 .f32) (x7 : Vec F S1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay3 x0 x1 x2 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1024x8) zero2, View.readCov_unit_zero (S := S1024x8) _ zero2]
  simp only [View.readAt_eq_ld, harg2.read_unread, harg3.read_unread, harg4.read_unread,
    View.ld_unit_zero (S := S1024x512) zero2, View.ld_unit_zero (S := S1024x8) zero2]

/-- The last tile's accumulator: as at a middle tile. -/
theorem acc_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x8 .f32) (harg4 : arg4.IsWhole) (arg5 : Memref sig .tc .vmem S8x4 .f32) (harg5 : arg5.IsWhole) (arg6 : Memref sig .tc .vmem S4x1 .f32) (harg6 : arg6.IsWhole) (arg7 : Memref sig .tc .vmem S8 .f32) (harg7 : arg7.IsWhole) (arg8 : Memref sig .tc .vmem S4 .f32) (harg8 : arg8.IsWhole) (arg9 : Memref sig .tc .vmem S1 .f32) (harg9 : arg9.IsWhole) (arg10 : Memref sig .tc .vmem S1024x1 .f32) (harg10 : arg10.IsWhole) (arg11 : Memref sig .tc .vmem S1024x8 .f32) (harg11 : arg11.IsWhole) (hc0 : ¬cond0_0 i) (hc1 : cond0_1 i) (x0 : Vec F S1024x512 .f32) (x1 : Vec F S1024x512 .f32) (x2 : Vec F S1024x8 .f32) (x3 : Vec F S8x4 .f32) (x4 : Vec F S4x1 .f32) (x5 : Vec F S8 .f32) (x6 : Vec F S4 .f32) (x7 : Vec F S1 .f32) (xs0 : Vec F S1024x8 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero zero2]
  simp only [View.readAt_eq_ld, harg2.read_unread, harg3.read_unread, harg4.read_unread, harg11.read_unread,
    View.ld_unit_zero (S := S1024x512) zero2, View.ld_unit_zero (S := S1024x8) zero2]

/-- The last tile's output block: the network applied to the accumulator that tile leaves. -/
theorem out_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x8 .f32) (harg4 : arg4.IsWhole) (arg5 : Memref sig .tc .vmem S8x4 .f32) (harg5 : arg5.IsWhole) (arg6 : Memref sig .tc .vmem S4x1 .f32) (harg6 : arg6.IsWhole) (arg7 : Memref sig .tc .vmem S8 .f32) (harg7 : arg7.IsWhole) (arg8 : Memref sig .tc .vmem S4 .f32) (harg8 : arg8.IsWhole) (arg9 : Memref sig .tc .vmem S1 .f32) (harg9 : arg9.IsWhole) (arg10 : Memref sig .tc .vmem S1024x1 .f32) (harg10 : arg10.IsWhole) (arg11 : Memref sig .tc .vmem S1024x8 .f32) (harg11 : arg11.IsWhole) (hc0 : ¬cond0_0 i) (hc1 : cond0_1 i) (x0 : Vec F S1024x512 .f32) (x1 : Vec F S1024x512 .f32) (x2 : Vec F S1024x8 .f32) (x3 : Vec F S8x4 .f32) (x4 : Vec F S4x1 .f32) (x5 : Vec F S8 .f32) (x6 : Vec F S4 .f32) (x7 : Vec F S1 .f32) (xs0 : Vec F S1024x8 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay3 x0 x1 x2 xs0) x5 x3 x6 x4 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero zero2, View.readCov_unit_zero (S := S1024x8) _ zero2]
  simp only [View.readAt_eq_ld, harg2.read_unread, harg3.read_unread, harg4.read_unread, harg5.read_unread,
    harg6.read_unread, harg7.read_unread, harg8.read_unread, harg9.read_unread, harg11.read_unread,
    View.ld_unit_zero (S := S1024x512) zero2, View.ld_unit_zero (S := S1024x8) zero2,
    View.ld_unit_zero (S := S8x4) zero2, View.ld_unit_zero (S := S4x1) zero2,
    View.ld_unit_zero (S := S8) zero1, View.ld_unit_zero (S := S4) zero1, View.ld_unit_zero (S := S1) zero1]

end Cert.KernelIdeal.Pieces

end
-- ==== Proof.Spec.lean ====
/-
  The function both programs compute, over the extended reals.

  Rows x_r of X (4096 of them) are compared with rows y_n of X_train (8192) through the Gaussian kernel
      k(r, n) = exp (γ' · max (|x_r|² + |y_n|² − 2 · ⟨x_r, y_n⟩, 0)),      γ' the literal −0.001,
  the 8192 kernel values of a row are contracted with W1 into 8 features, and a two-layer tanh network maps
  the features to one number:
      out r = Σ_q tanh (Σ_p tanh (feat r p + b1 p) · W2 p q + b2 q) · W3 q 0 + b3 0,
      feat r p = Σ_n k(r, n) · W1 n p.
  The kernel program reaches feat r p in eight steps, adding the train rows 1024 at a time; `partFeat` is the
  sum over the first 1024·k train rows, and the two lemmas at the end say how it grows and where it ends.
  Sums on the extended reals re-associate freely (a commutative monoid), so no finiteness is needed.
-/
import Idealize.ShloMosaic.Lib.ValueIdx
import Idealize.ShloMosaic.PureOps.Ideal.Laws

noncomputable section

open scoped BigOperators

namespace RbfMlp

open Idealize.ShloMosaic Idealize.ShloMosaic.ValueIdx

/-- A rank-2 array of extended reals. -/
abbrev Arr2 (a b : ℕ) : Type := (⟨2, ![a, b]⟩ : Shape).Idx → EReal
/-- A rank-1 array of extended reals. -/
abbrev Arr1 (a : ℕ) : Type := (⟨1, ![a]⟩ : Shape).Idx → EReal

/-- The squared length of row `r`. -/
def sqn {R D : ℕ} (X : Arr2 R D) (r : Fin R) : EReal := ∑ d : Fin D, X (ix2 r d) * X (ix2 r d)

/-- The inner product of row `r` of `X` with row `n` of `Y`. -/
def gram {R N D : ℕ} (X : Arr2 R D) (Y : Arr2 N D) (r : Fin R) (n : Fin N) : EReal :=
  ∑ d : Fin D, X (ix2 r d) * Y (ix2 n d)

/-- The Gaussian kernel of row `r` of `X` and row `n` of `Y`: the squared distance by the expansion
    |x|² + |y|² − 2⟨x, y⟩, clamped at zero, scaled by the literal −0.001 and exponentiated. -/
def rbf {R N D : ℕ} (X : Arr2 R D) (Y : Arr2 N D) (r : Fin R) (n : Fin N) : EReal :=
  Ideal.exp (Ideal.ofBits .f32 0xBA83126F#32
    * max (sqn X r + sqn Y n - Ideal.ofBits .f32 0x40000000#32 * gram X Y r n) (Ideal.ofBits .f32 0x00000000#32))

/-- One tile's contribution to feature `p` of row `r`: the kernel values against the tile's rows of `W`. -/
def tileFeat {R N D : ℕ} (X : Arr2 R D) (Y : Arr2 N D) (W : Arr2 N 8) (r : Fin R) (p : Fin 8) : EReal :=
  ∑ n : Fin N, rbf X Y r n * W (ix2 n p)

/-- Feature `p` of row `r` restricted to the first `1024 · k` train rows. -/
def partFeat (X : Arr2 4096 512) (Y : Arr2 8192 512) (W : Arr2 8192 8) (r : Fin 4096) (p : Fin 8) (k : ℕ) : EReal :=
  ∑ n ∈ Finset.univ.filter (fun n : Fin 8192 => n.val < 1024 * k), rbf X Y r n * W (ix2 n p)

/-- The two-layer tanh network on a row's eight features. -/
def head (b1 : Arr1 8) (W2 : Arr2 8 4) (b2 : Arr1 4) (W3 : Arr2 4 1) (b3 : Arr1 1) (f : Fin 8 → EReal) : EReal :=
  (∑ q : Fin 4, Ideal.tanh ((∑ p : Fin 8, Ideal.tanh (f p + b1 (ix1 p)) * W2 (ix2 p q)) + b2 (ix1 q)) * W3 (ix2 q (0 : Fin 1)))
    + b3 (ix1 (0 : Fin 1))

/-- The whole model at row `r`. -/
def model (X : Arr2 4096 512) (Y : Arr2 8192 512) (W1 : Arr2 8192 8) (b1 : Arr1 8) (W2 : Arr2 8 4) (b2 : Arr1 4)
    (W3 : Arr2 4 1) (b3 : Arr1 1) (r : Fin 4096) : EReal :=
  head b1 W2 b2 W3 b3 (fun p => tileFeat X Y W1 r p)

/-! ## Summing the train rows a tile at a time -/

/-- Row `n'` of train tile `k`. -/
def tileRow (k : ℕ) (hk : k < 8) (n' : Fin 1024) : Fin 8192 := ⟨1024 * k + n'.val, by have := n'.isLt; omega⟩

/-- Before any tile the partial sum is empty. -/
theorem sum_first_zero {M : Type*} [AddCommMonoid M] (F : Fin 8192 → M) :
    ∑ n ∈ Finset.univ.filter (fun n : Fin 8192 => n.val < 1024 * 0), F n = 0 := by
  rw [Finset.filter_false_of_mem (fun n _ => by omega)]
  exact Finset.sum_empty

/-- Tile `k` extends the sum over the first `1024 · k` rows to the first `1024 · (k + 1)`. -/
theorem sum_first_succ {M : Type*} [AddCommMonoid M] (F : Fin 8192 → M) (k : ℕ) (hk : k < 8) :
    ∑ n ∈ Finset.univ.filter (fun n : Fin 8192 => n.val < 1024 * (k + 1)), F n
      = (∑ n ∈ Finset.univ.filter (fun n : Fin 8192 => n.val < 1024 * k), F n) + ∑ n' : Fin 1024, F (tileRow k hk n') := by
  have hinj : Function.Injective (tileRow k hk) := fun a b h => by
    have := congrArg Fin.val h
    exact Fin.ext (by simp only [tileRow] at this; omega)
  have hsplit : Finset.univ.filter (fun n : Fin 8192 => n.val < 1024 * (k + 1))
      = Finset.univ.filter (fun n : Fin 8192 => n.val < 1024 * k) ∪ Finset.univ.map ⟨tileRow k hk, hinj⟩ := by
    ext n
    simp only [Finset.mem_filter, Finset.mem_univ, true_and, Finset.mem_union, Finset.mem_map,
      Function.Embedding.coeFn_mk]
    constructor
    · intro h
      by_cases h' : n.val < 1024 * k
      · exact Or.inl h'
      · exact Or.inr ⟨⟨n.val - 1024 * k, by omega⟩, Fin.ext (by simp only [tileRow]; omega)⟩
    · rintro (h | ⟨n', rfl⟩)
      · omega
      · have := n'.isLt
        simp only [tileRow]; omega
  have hdisj : Disjoint (Finset.univ.filter (fun n : Fin 8192 => n.val < 1024 * k)) (Finset.univ.map ⟨tileRow k hk, hinj⟩) := by
    rw [Finset.disjoint_left]
    intro n h1 h2
    simp only [Finset.mem_filter, Finset.mem_univ, true_and] at h1
    simp only [Finset.mem_map, Finset.mem_univ, true_and, Function.Embedding.coeFn_mk] at h2
    obtain ⟨n', rfl⟩ := h2
    simp only [tileRow] at h1; omega
  rw [hsplit, Finset.sum_union hdisj, Finset.sum_map]
  rfl

/-- After the eighth tile every row has been added. -/
theorem sum_first_all {M : Type*} [AddCommMonoid M] (F : Fin 8192 → M) :
    ∑ n ∈ Finset.univ.filter (fun n : Fin 8192 => n.val < 1024 * 8), F n = ∑ n, F n := by
  rw [Finset.filter_true_of_mem (fun n _ => by have := n.isLt; omega)]

theorem partFeat_zero (X : Arr2 4096 512) (Y : Arr2 8192 512) (W : Arr2 8192 8) (r : Fin 4096) (p : Fin 8) :
    partFeat X Y W r p 0 = 0 := sum_first_zero _

theorem partFeat_succ (X : Arr2 4096 512) (Y : Arr2 8192 512) (W : Arr2 8192 8) (r : Fin 4096) (p : Fin 8) (k : ℕ) (hk : k < 8) :
    partFeat X Y W r p (k + 1) = partFeat X Y W r p k + ∑ n' : Fin 1024, rbf X Y r (tileRow k hk n') * W (ix2 (tileRow k hk n') p) :=
  sum_first_succ _ k hk

theorem partFeat_all (X : Arr2 4096 512) (Y : Arr2 8192 512) (W : Arr2 8192 8) (r : Fin 4096) (p : Fin 8) :
    partFeat X Y W r p 8 = tileFeat X Y W r p := sum_first_all _

/-- The kernel of two blocks is the kernel of the arrays at the blocks' rows, when the blocks read the arrays there. -/
theorem rbf_congr {R N R' N' D : ℕ} (x : Arr2 R' D) (y : Arr2 N' D) (X : Arr2 R D) (Y : Arr2 N D)
    (r' : Fin R') (n' : Fin N') (r : Fin R) (n : Fin N)
    (hx : ∀ d : Fin D, x (ix2 r' d) = X (ix2 r d)) (hy : ∀ d : Fin D, y (ix2 n' d) = Y (ix2 n d)) :
    rbf x y r' n' = rbf X Y r n := by
  unfold rbf sqn gram
  simp only [hx, hy]

end RbfMlp

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.Payload.lean ====
/-
  The body's arithmetic, read one element at a time over the extended reals.

  The accumulating payload at (r, p) is the accumulator there plus the sum, over the tile's 1024 train rows n, of
  the Gaussian kernel of test row r and train row n times W1's tile at (n, p): the two row sums of squares come
  back to full width through a kept unit axis (a column for the test rows, a row for the train rows), the first
  matrix product contracts the feature axis of BOTH blocks (it is x · yᵀ), a change of float format is the
  identity, and a matrix product into the zero block is the plain sum over the contracted index.
  The finishing payload at row r is the two-layer network of Spec.lean on the row's eight accumulated features.
-/
import proofs.«175474_j65481071399956_1_alg».proof.Proof.Gen.KernelIdeal.Skeleton
import proofs.«175474_j65481071399956_1_alg».proof.Proof.Spec
import proofs.«175474_j65481071399956_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx RbfMlp

/-! ## The four matrix products, each as a sum over its one contracted coordinate -/

theorem lhs_gramMM_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_gramMM_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_gramMM_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_gramMM_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q
/-- The first product contracts the feature axis of both blocks: row r of the left against row c of the right. -/
theorem gramMM_apply (a : FVec Ideal S1024x512 .bf16) (b : FVec Ideal S1024x512 .bf16) (r : Fin 1024) (c : Fin 1024) :
    matmul dot_S1024x512_S1024x512_S1024x1024_1_1_0_0_n_n none a b (constant (F := Ideal) S1024x1024 .f32 0x00000000#32) (ix2 r c)
      = ∑ k : Fin 512, a (ix2 r k) * b (ix2 c k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r c) ((contrEquiv1 dot_S1024x512_S1024x512_S1024x1024_1_1_0_0_n_n 512 rfl rfl).symm k) = ix2 r k := funext fun a => Fin.ext (by
    match a with
    | ⟨0, _⟩ => exact lhs_gramMM_0 _ _
    | ⟨1, _⟩ => exact (lhs_gramMM_1 _ _).trans hk)
  have er : dot_S1024x512_S1024x512_S1024x1024_1_1_0_0_n_n.rhsIdx (ix2 r c) ((contrEquiv1 dot_S1024x512_S1024x512_S1024x1024_1_1_0_0_n_n 512 rfl rfl).symm k) = ix2 c k := funext fun a => Fin.ext (by
    match a with
    | ⟨0, _⟩ => exact rhs_gramMM_0 _ _
    | ⟨1, _⟩ => exact (rhs_gramMM_1 _ _).trans hk)
  rw [el, er]

theorem lhs_featMM_0 (i : S1024x8.Idx) (q : dot_S1024x1024_S1024x8_S1024x8_1_0_0_1_n_n.contr.Idx) :
    (dot_S1024x1024_S1024x8_S1024x8_1_0_0_1_n_n.lhsIdx i q 0).val = (i 0).val := by
  unfold DotDims.lhsIdx
  rw [dif_neg (show ¬(0 : Fin S1024x1024.rank) ∈ dot_S1024x1024_S1024x8_S1024x8_1_0_0_1_n_n.lhsBatch by decide), dif_pos (show (0 : Fin S1024x1024.rank) ∈ dot_S1024x1024_S1024x8_S1024x8_1_0_0_1_n_n.lhsNonContracting by decide)]
  rfl
theorem lhs_featMM_1 (i : S1024x8.Idx) (q : dot_S1024x1024_S1024x8_S1024x8_1_0_0_1_n_n.contr.Idx) :
    (dot_S1024x1024_S1024x8_S1024x8_1_0_0_1_n_n.lhsIdx i q 1).val = (q ⟨0, by decide⟩).val :=
  dot_S1024x1024_S1024x8_S1024x8_1_0_0_1_n_n.lhsIdx_val_of_single rfl i q
theorem rhs_featMM_0 (i : S1024x8.Idx) (q : dot_S1024x1024_S1024x8_S1024x8_1_0_0_1_n_n.contr.Idx) :
    (dot_S1024x1024_S1024x8_S1024x8_1_0_0_1_n_n.rhsIdx i q 0).val = (q ⟨0, by decide⟩).val :=
  dot_S1024x1024_S1024x8_S1024x8_1_0_0_1_n_n.rhsIdx_val_of_single rfl i q
theorem rhs_featMM_1 (i : S1024x8.Idx) (q : dot_S1024x1024_S1024x8_S1024x8_1_0_0_1_n_n.contr.Idx) :
    (dot_S1024x1024_S1024x8_S1024x8_1_0_0_1_n_n.rhsIdx i q 1).val = (i 1).val := by
  unfold DotDims.rhsIdx
  rw [dif_neg (show ¬(1 : Fin S1024x8.rank) ∈ dot_S1024x1024_S1024x8_S1024x8_1_0_0_1_n_n.rhsBatch by decide), dif_pos (show (1 : Fin S1024x8.rank) ∈ dot_S1024x1024_S1024x8_S1024x8_1_0_0_1_n_n.rhsNonContracting by decide)]
  rfl
/-- The kernel values against the W1 tile. -/
theorem featMM_apply (a : FVec Ideal S1024x1024 .bf16) (b : FVec Ideal S1024x8 .bf16) (r : Fin 1024) (c : Fin 8) :
    matmul dot_S1024x1024_S1024x8_S1024x8_1_0_0_1_n_n none a b (constant (F := Ideal) S1024x8 .f32 0x00000000#32) (ix2 r c)
      = ∑ k : Fin 1024, a (ix2 r k) * b (ix2 k c) := by
  simp only [matmul]
  rw [Ideal.matmul_constant_zero_apply, ← Equiv.sum_comp (contrEquiv1 dot_S1024x1024_S1024x8_S1024x8_1_0_0_1_n_n 1024 rfl rfl).symm]
  refine Finset.sum_congr rfl fun k _ => ?_
  have hk := contrEquiv1_symm_val dot_S1024x1024_S1024x8_S1024x8_1_0_0_1_n_n 1024 rfl rfl k
  have el : dot_S1024x1024_S1024x8_S1024x8_1_0_0_1_n_n.lhsIdx (ix2 r c) ((contrEquiv1 dot_S1024x1024_S1024x8_S1024x8_1_0_0_1_n_n 1024 rfl rfl).symm k) = ix2 r k := funext fun a => Fin.ext (by
    match a with
    | ⟨0, _⟩ => exact lhs_featMM_0 _ _
    | ⟨1, _⟩ => exact (lhs_featMM_1 _ _).trans hk)
  have er : dot_S1024x1024_S1024x8_S1024x8_1_0_0_1_n_n.rhsIdx (ix2 r c) ((contrEquiv1 dot_S1024x1024_S1024x8_S1024x8_1_0_0_1_n_n 1024 rfl rfl).symm k) = ix2 k c := funext fun a => Fin.ext (by
    match a with
    | ⟨0, _⟩ => exact (rhs_featMM_0 _ _).trans hk
    | ⟨1, _⟩ => exact rhs_featMM_1 _ _)
  rw [el, er]

theorem lhs_hid1MM_0 (i : S1024x4.Idx) (q : dot_S1024x8_S8x4_S1024x4_1_0_0_1_n_n.contr.Idx) :
    (dot_S1024x8_S8x4_S1024x4_1_0_0_1_n_n.lhsIdx i q 0).val = (i 0).val := by
  unfold DotDims.lhsIdx
  rw [dif_neg (show ¬(0 : Fin S1024x8.rank) ∈ dot_S1024x8_S8x4_S1024x4_1_0_0_1_n_n.lhsBatch by decide), dif_pos (show (0 : Fin S1024x8.rank) ∈ dot_S1024x8_S8x4_S1024x4_1_0_0_1_n_n.lhsNonContracting by decide)]
  rfl
theorem lhs_hid1MM_1 (i : S1024x4.Idx) (q : dot_S1024x8_S8x4_S1024x4_1_0_0_1_n_n.contr.Idx) :
    (dot_S1024x8_S8x4_S1024x4_1_0_0_1_n_n.lhsIdx i q 1).val = (q ⟨0, by decide⟩).val :=
  dot_S1024x8_S8x4_S1024x4_1_0_0_1_n_n.lhsIdx_val_of_single rfl i q
theorem rhs_hid1MM_0 (i : S1024x4.Idx) (q : dot_S1024x8_S8x4_S1024x4_1_0_0_1_n_n.contr.Idx) :
    (dot_S1024x8_S8x4_S1024x4_1_0_0_1_n_n.rhsIdx i q 0).val = (q ⟨0, by decide⟩).val :=
  dot_S1024x8_S8x4_S1024x4_1_0_0_1_n_n.rhsIdx_val_of_single rfl i q
theorem rhs_hid1MM_1 (i : S1024x4.Idx) (q : dot_S1024x8_S8x4_S1024x4_1_0_0_1_n_n.contr.Idx) :
    (dot_S1024x8_S8x4_S1024x4_1_0_0_1_n_n.rhsIdx i q 1).val = (i 1).val := by
  unfold DotDims.rhsIdx
  rw [dif_neg (show ¬(1 : Fin S8x4.rank) ∈ dot_S1024x8_S8x4_S1024x4_1_0_0_1_n_n.rhsBatch by decide), dif_pos (show (1 : Fin S8x4.rank) ∈ dot_S1024x8_S8x4_S1024x4_1_0_0_1_n_n.rhsNonContracting by decide)]
  rfl
/-- The first hidden layer against W2. -/
theorem hid1MM_apply (a : FVec Ideal S1024x8 .bf16) (b : FVec Ideal S8x4 .bf16) (r : Fin 1024) (c : Fin 4) :
    matmul dot_S1024x8_S8x4_S1024x4_1_0_0_1_n_n none a b (constant (F := Ideal) S1024x4 .f32 0x00000000#32) (ix2 r c)
      = ∑ k : Fin 8, a (ix2 r k) * b (ix2 k c) := by
  simp only [matmul]
  rw [Ideal.matmul_constant_zero_apply, ← Equiv.sum_comp (contrEquiv1 dot_S1024x8_S8x4_S1024x4_1_0_0_1_n_n 8 rfl rfl).symm]
  refine Finset.sum_congr rfl fun k _ => ?_
  have hk := contrEquiv1_symm_val dot_S1024x8_S8x4_S1024x4_1_0_0_1_n_n 8 rfl rfl k
  have el : dot_S1024x8_S8x4_S1024x4_1_0_0_1_n_n.lhsIdx (ix2 r c) ((contrEquiv1 dot_S1024x8_S8x4_S1024x4_1_0_0_1_n_n 8 rfl rfl).symm k) = ix2 r k := funext fun a => Fin.ext (by
    match a with
    | ⟨0, _⟩ => exact lhs_hid1MM_0 _ _
    | ⟨1, _⟩ => exact (lhs_hid1MM_1 _ _).trans hk)
  have er : dot_S1024x8_S8x4_S1024x4_1_0_0_1_n_n.rhsIdx (ix2 r c) ((contrEquiv1 dot_S1024x8_S8x4_S1024x4_1_0_0_1_n_n 8 rfl rfl).symm k) = ix2 k c := funext fun a => Fin.ext (by
    match a with
    | ⟨0, _⟩ => exact (rhs_hid1MM_0 _ _).trans hk
    | ⟨1, _⟩ => exact rhs_hid1MM_1 _ _)
  rw [el, er]

theorem lhs_hid2MM_0 (i : S1024x1.Idx) (q : dot_S1024x4_S4x1_S1024x1_1_0_0_1_n_n.contr.Idx) :
    (dot_S1024x4_S4x1_S1024x1_1_0_0_1_n_n.lhsIdx i q 0).val = (i 0).val := by
  unfold DotDims.lhsIdx
  rw [dif_neg (show ¬(0 : Fin S1024x4.rank) ∈ dot_S1024x4_S4x1_S1024x1_1_0_0_1_n_n.lhsBatch by decide), dif_pos (show (0 : Fin S1024x4.rank) ∈ dot_S1024x4_S4x1_S1024x1_1_0_0_1_n_n.lhsNonContracting by decide)]
  rfl
theorem lhs_hid2MM_1 (i : S1024x1.Idx) (q : dot_S1024x4_S4x1_S1024x1_1_0_0_1_n_n.contr.Idx) :
    (dot_S1024x4_S4x1_S1024x1_1_0_0_1_n_n.lhsIdx i q 1).val = (q ⟨0, by decide⟩).val :=
  dot_S1024x4_S4x1_S1024x1_1_0_0_1_n_n.lhsIdx_val_of_single rfl i q
theorem rhs_hid2MM_0 (i : S1024x1.Idx) (q : dot_S1024x4_S4x1_S1024x1_1_0_0_1_n_n.contr.Idx) :
    (dot_S1024x4_S4x1_S1024x1_1_0_0_1_n_n.rhsIdx i q 0).val = (q ⟨0, by decide⟩).val :=
  dot_S1024x4_S4x1_S1024x1_1_0_0_1_n_n.rhsIdx_val_of_single rfl i q
theorem rhs_hid2MM_1 (i : S1024x1.Idx) (q : dot_S1024x4_S4x1_S1024x1_1_0_0_1_n_n.contr.Idx) :
    (dot_S1024x4_S4x1_S1024x1_1_0_0_1_n_n.rhsIdx i q 1).val = (i 1).val := by
  unfold DotDims.rhsIdx
  rw [dif_neg (show ¬(1 : Fin S4x1.rank) ∈ dot_S1024x4_S4x1_S1024x1_1_0_0_1_n_n.rhsBatch by decide), dif_pos (show (1 : Fin S4x1.rank) ∈ dot_S1024x4_S4x1_S1024x1_1_0_0_1_n_n.rhsNonContracting by decide)]
  rfl
/-- The second hidden layer against W3. -/
theorem hid2MM_apply (a : FVec Ideal S1024x4 .bf16) (b : FVec Ideal S4x1 .bf16) (r : Fin 1024) (c : Fin 1) :
    matmul dot_S1024x4_S4x1_S1024x1_1_0_0_1_n_n none a b (constant (F := Ideal) S1024x1 .f32 0x00000000#32) (ix2 r c)
      = ∑ k : Fin 4, a (ix2 r k) * b (ix2 k c) := by
  simp only [matmul]
  rw [Ideal.matmul_constant_zero_apply, ← Equiv.sum_comp (contrEquiv1 dot_S1024x4_S4x1_S1024x1_1_0_0_1_n_n 4 rfl rfl).symm]
  refine Finset.sum_congr rfl fun k _ => ?_
  have hk := contrEquiv1_symm_val dot_S1024x4_S4x1_S1024x1_1_0_0_1_n_n 4 rfl rfl k
  have el : dot_S1024x4_S4x1_S1024x1_1_0_0_1_n_n.lhsIdx (ix2 r c) ((contrEquiv1 dot_S1024x4_S4x1_S1024x1_1_0_0_1_n_n 4 rfl rfl).symm k) = ix2 r k := funext fun a => Fin.ext (by
    match a with
    | ⟨0, _⟩ => exact lhs_hid2MM_0 _ _
    | ⟨1, _⟩ => exact (lhs_hid2MM_1 _ _).trans hk)
  have er : dot_S1024x4_S4x1_S1024x1_1_0_0_1_n_n.rhsIdx (ix2 r c) ((contrEquiv1 dot_S1024x4_S4x1_S1024x1_1_0_0_1_n_n 4 rfl rfl).symm k) = ix2 k c := funext fun a => Fin.ext (by
    match a with
    | ⟨0, _⟩ => exact (rhs_hid2MM_0 _ _).trans hk
    | ⟨1, _⟩ => exact rhs_hid2MM_1 _ _)
  rw [el, er]

/-! ## A row sum of squares -/

/-- The lane reduction over the feature axis, at row r, is the sum over the 512 features. -/
theorem rowsum_apply (v : FVec Ideal S1024x512 .f32) (r : Fin 1024) (hφ : FKind.Formats .f32)
    (hacc : (0x00000000#32 : BitVec 32) = 0x00000000#32) :
    multiReduction (F := Ideal) .add [1] S1024 v 0x00000000#32 reduces_S1024x512_S1024 hφ hacc (ix1 r)
      = ∑ d : Fin 512, v (ix2 r d) := by
  refine (Ideal.multiReduction_add_single v 0x00000000#32 reduces_S1024x512_S1024 hφ hacc (ix1 r)).trans ?_
  refine Finset.sum_congr rfl fun d _ => ?_
  exact congrArg v (funext fun a => Fin.ext (by match a with | ⟨0, _⟩ => rfl | ⟨1, _⟩ => rfl))

/-! ## The accumulating payload -/

theorem pay3_apply (x0 x1 : Vec Ideal S1024x512 .f32) (x2 acc : Vec Ideal S1024x8 .f32) (r : Fin 1024) (p : Fin 8) :
    k0_pay3 (F := Ideal) x0 x1 x2 acc (ix2 r p)
      = acc (ix2 r p) + tileFeat (R := 1024) (N := 1024) (D := 512) x0 x1 x2 r p := by
  unfold k0_pay3
  dsimp only
  rw [shapeCast_self, addf_apply, featMM_apply]
  unfold tileFeat
  refine congrArg (acc (ix2 r p) + ·) (Finset.sum_congr rfl fun k _ => ?_)
  rw [truncf_apply, truncf_apply]
  refine congrArg (· * x2 (ix2 k p)) ?_
  simp only [exp, mulf_apply, maximumf_apply, subf_apply, addf_apply, broadcast_apply]
  rw [Keepdims.broadcastTo_a1_ab_apply, Keepdims.shapeCast_a_a1_apply, rowsum_apply,
    broadcastTo_1b_ab_apply, shapeCast_a_1a_apply, rowsum_apply, gramMM_apply]
  rfl

/-! ## The finishing payload -/

theorem pay1_apply (acc : Vec Ideal S1024x8 .f32) (b1 : Vec Ideal S8 .f32) (W2 : Vec Ideal S8x4 .f32)
    (b2 : Vec Ideal S4 .f32) (W3 : Vec Ideal S4x1 .f32) (b3 : Vec Ideal S1 .f32) (r : Fin 1024) :
    k0_pay1 (F := Ideal) acc b1 W2 b2 W3 b3 (ix2 r (0 : Fin 1))
      = head b1 W2 b2 W3 b3 (fun p => acc (ix2 r p)) := by
  unfold k0_pay1
  rw [addf_apply, hid2MM_apply, broadcastTo_1b_ab_apply, shapeCast_a_1a_apply]
  unfold head
  refine congrArg (· + b3 (ix1 (0 : Fin 1))) (Finset.sum_congr rfl fun q _ => ?_)
  rw [truncf_apply, truncf_apply]
  refine congrArg (· * W3 (ix2 q (0 : Fin 1))) ?_
  simp only [tanh, addf_apply]
  rw [hid1MM_apply, broadcastTo_1b_ab_apply, shapeCast_a_1a_apply]
  refine congrArg (fun s => Ideal.tanh (s + b2 (ix1 q))) (Finset.sum_congr rfl fun p _ => ?_)
  rw [truncf_apply, truncf_apply]
  refine congrArg (· * W2 (ix2 p q)) ?_
  simp only [tanh, addf_apply]
  rw [broadcastTo_1b_ab_apply, shapeCast_a_1a_apply]
  rfl

end Cert.KernelIdeal.Payload

end
-- ==== Proof.Accum.lean ====
/-
  The accumulator across the eight train tiles of a block of test rows, and the output block.

  Grid point t = 8·i + j works on test rows 1024·i … 1024·i + 1023 and train rows 1024·j … 1024·j + 1023: its three
  moving blocks read the arrays at those rows, its five small blocks are the whole small arrays.  By induction on
  the point, after point t the accumulator at (r', p) holds feature p of test row 1024·i + r' restricted to the
  first 1024·(j + 1) train rows: the first tile of a block starts from the zero block, every later tile adds to
  what the point before left, and within a block of eight points the test rows do not change.  At the last tile
  all 8192 train rows are in, and the output block is the network applied to the full features.
-/
import proofs.«175474_j65481071399956_1_alg».proof.Proof.Gen.KernelIdeal.Frame
import proofs.«175474_j65481071399956_1_alg».proof.Proof.Pieces
import proofs.«175474_j65481071399956_1_alg».proof.Proof.Payload
import proofs.«175474_j65481071399956_1_alg».proof.Proof.Spec
import Idealize.ShloMosaic.Lib.Pipeline.Value

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx RbfMlp
open Idealize.ShloMosaic.Pipeline (Dat)

variable (m : (ℓ : Loc nD τ sig) → Buf (Elt Ideal) ℓ)

/-! ## The arrays as the region finds them, and the blocks at a point, at their literal types -/

abbrev Xarr (c : Dev nD) : Vec Ideal S4096x512 .f32 := V m c main_arg0
abbrev Yarr (c : Dev nD) : Vec Ideal S8192x512 .f32 := V m c main_arg1
abbrev W1arr (c : Dev nD) : Vec Ideal S8192x8 .f32 := V m c main_arg2
abbrev b1arr (c : Dev nD) : Vec Ideal S8 .f32 := V m c main_arg3
abbrev W2arr (c : Dev nD) : Vec Ideal S8x4 .f32 := V m c main_arg4
abbrev b2arr (c : Dev nD) : Vec Ideal S4 .f32 := V m c main_arg5
abbrev W3arr (c : Dev nD) : Vec Ideal S4x1 .f32 := V m c main_arg6
abbrev b3arr (c : Dev nD) : Vec Ideal S1 .f32 := V m c main_arg7

abbrev xblk (c : Dev nD) (t : Fin cfg0.N) : Vec Ideal S1024x512 .f32 := iblk m c 0 t
abbrev yblk (c : Dev nD) (t : Fin cfg0.N) : Vec Ideal S1024x512 .f32 := iblk m c 1 t
abbrev wblk (c : Dev nD) (t : Fin cfg0.N) : Vec Ideal S1024x8 .f32 := iblk m c 2 t
abbrev W2blk (c : Dev nD) (t : Fin cfg0.N) : Vec Ideal S8x4 .f32 := iblk m c 3 t
abbrev W3blk (c : Dev nD) (t : Fin cfg0.N) : Vec Ideal S4x1 .f32 := iblk m c 4 t
abbrev b1blk (c : Dev nD) (t : Fin cfg0.N) : Vec Ideal S8 .f32 := iblk m c 5 t
abbrev b2blk (c : Dev nD) (t : Fin cfg0.N) : Vec Ideal S4 .f32 := iblk m c 6 t
abbrev b3blk (c : Dev nD) (t : Fin cfg0.N) : Vec Ideal S1 .f32 := iblk m c 7 t

/-! ## Which rows a point's blocks read -/

/-- The printed index maps of the three moving windows and the output, decided over the grid: point t is block
    t / 8 of the test rows and tile t % 8 of the train rows. -/
theorem moving_idx : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_8.index t (0 : Fin 2) = t.val / 8 ∧ win0_8.index t (1 : Fin 2) = 0 :=
  (by decide +kernel : ∀ t : Fin grid0.N, _)

/-- The five small windows stay at block zero. -/
theorem small_idx : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 :=
  (by decide +kernel : ∀ t : Fin grid0.N, _)

/-- Test row r' of point t's block. -/
def testRow (t : Fin cfg0.N) (r' : Fin 1024) : Fin 4096 :=
  ⟨1024 * (t.val / 8) + r'.val, by have := t.isLt; have hN : cfg0.N = 32 := N_0; have := r'.isLt; omega⟩

theorem tile_lt (t : Fin cfg0.N) : t.val % 8 < 8 := Nat.mod_lt _ (by norm_num)

theorem xblk_apply (c : Dev nD) (t : Fin cfg0.N) (r' : Fin 1024) (d : Fin 512) :
    xblk m c t (ix2 r' d) = Xarr m c (ix2 (testRow t r') d) := by
  obtain ⟨e0, e1, -⟩ := moving_idx t
  show V m c main_arg0 (((cfg0.win 0).blk t).view.emb (ix2 r' d)) = V m c main_arg0 (ix2 (testRow t r') d)
  have h : ((cfg0.win 0).blk t).view.emb (ix2 r' d) = ix2 (testRow t r') d := by
    funext a; apply Fin.ext
    match a with
    | ⟨0, _⟩ => show win0_0.index t (0 : Fin 2) * 1024 + 1 * r'.val = 1024 * (t.val / 8) + r'.val; rw [e0]; omega
    | ⟨1, _⟩ => show win0_0.index t (1 : Fin 2) * 512 + 1 * d.val = d.val; rw [e1]; omega
  rw [h]

theorem yblk_apply (c : Dev nD) (t : Fin cfg0.N) (n' : Fin 1024) (d : Fin 512) :
    yblk m c t (ix2 n' d) = Yarr m c (ix2 (tileRow (t.val % 8) (tile_lt t) n') d) := by
  obtain ⟨-, -, e0, e1, -⟩ := moving_idx t
  show V m c main_arg1 (((cfg0.win 1).blk t).view.emb (ix2 n' d)) = V m c main_arg1 (ix2 (tileRow (t.val % 8) (tile_lt t) n') d)
  have h : ((cfg0.win 1).blk t).view.emb (ix2 n' d) = ix2 (tileRow (t.val % 8) (tile_lt t) n') d := by
    funext a; apply Fin.ext
    match a with
    | ⟨0, _⟩ => show win0_1.index t (0 : Fin 2) * 1024 + 1 * n'.val = 1024 * (t.val % 8) + n'.val; rw [e0]; omega
    | ⟨1, _⟩ => show win0_1.index t (1 : Fin 2) * 512 + 1 * d.val = d.val; rw [e1]; omega
  rw [h]

theorem wblk_apply (c : Dev nD) (t : Fin cfg0.N) (n' : Fin 1024) (p : Fin 8) :
    wblk m c t (ix2 n' p) = W1arr m c (ix2 (tileRow (t.val % 8) (tile_lt t) n') p) := by
  obtain ⟨-, -, -, -, e0, e1, -⟩ := moving_idx t
  show V m c main_arg2 (((cfg0.win 2).blk t).view.emb (ix2 n' p)) = V m c main_arg2 (ix2 (tileRow (t.val % 8) (tile_lt t) n') p)
  have h : ((cfg0.win 2).blk t).view.emb (ix2 n' p) = ix2 (tileRow (t.val % 8) (tile_lt t) n') p := by
    funext a; apply Fin.ext
    match a with
    | ⟨0, _⟩ => show win0_2.index t (0 : Fin 2) * 1024 + 1 * n'.val = 1024 * (t.val % 8) + n'.val; rw [e0]; omega
    | ⟨1, _⟩ => show win0_2.index t (1 : Fin 2) * 8 + 1 * p.val = p.val; rw [e1]; omega
  rw [h]

theorem W2blk_eq (c : Dev nD) (t : Fin cfg0.N) : W2blk m c t = W2arr m c := by
  have e0 : win0_3.index t (0 : Fin 2) = 0 := (small_idx t).1
  have e1 : win0_3.index t (1 : Fin 2) = 0 := (small_idx t).2.1
  funext y
  show V m c main_arg4 (((cfg0.win 3).blk t).view.emb y) = V m c main_arg4 y
  have h : ((cfg0.win 3).blk t).view.emb y = y := by
    funext a; apply Fin.ext
    match a with
    | ⟨0, _⟩ => show win0_3.index t (0 : Fin 2) * 8 + 1 * (y 0).val = (y 0).val; rw [e0]; omega
    | ⟨1, _⟩ => show win0_3.index t (1 : Fin 2) * 4 + 1 * (y 1).val = (y 1).val; rw [e1]; omega
  rw [h]

theorem W3blk_eq (c : Dev nD) (t : Fin cfg0.N) : W3blk m c t = W3arr m c := by
  have e0 : win0_4.index t (0 : Fin 2) = 0 := (small_idx t).2.2.1
  have e1 : win0_4.index t (1 : Fin 2) = 0 := (small_idx t).2.2.2.1
  funext y
  show V m c main_arg6 (((cfg0.win 4).blk t).view.emb y) = V m c main_arg6 y
  have h : ((cfg0.win 4).blk t).view.emb y = y := by
    funext a; apply Fin.ext
    match a with
    | ⟨0, _⟩ => show win0_4.index t (0 : Fin 2) * 4 + 1 * (y 0).val = (y 0).val; rw [e0]; omega
    | ⟨1, _⟩ => show win0_4.index t (1 : Fin 2) * 1 + 1 * (y 1).val = (y 1).val; rw [e1]; omega
  rw [h]

theorem b1blk_eq (c : Dev nD) (t : Fin cfg0.N) : b1blk m c t = b1arr m c := by
  have e0 : win0_5.index t (0 : Fin 1) = 0 := (small_idx t).2.2.2.2.1
  funext y
  show V m c main_arg3 (((cfg0.win 5).blk t).view.emb y) = V m c main_arg3 y
  have h : ((cfg0.win 5).blk t).view.emb y = y := by
    funext a; apply Fin.ext
    match a with
    | ⟨0, _⟩ => show win0_5.index t (0 : Fin 1) * 8 + 1 * (y 0).val = (y 0).val; rw [e0]; omega
  rw [h]

theorem b2blk_eq (c : Dev nD) (t : Fin cfg0.N) : b2blk m c t = b2arr m c := by
  have e0 : win0_6.index t (0 : Fin 1) = 0 := (small_idx t).2.2.2.2.2.1
  funext y
  show V m c main_arg5 (((cfg0.win 6).blk t).view.emb y) = V m c main_arg5 y
  have h : ((cfg0.win 6).blk t).view.emb y = y := by
    funext a; apply Fin.ext
    match a with
    | ⟨0, _⟩ => show win0_6.index t (0 : Fin 1) * 4 + 1 * (y 0).val = (y 0).val; rw [e0]; omega
  rw [h]

theorem b3blk_eq (c : Dev nD) (t : Fin cfg0.N) : b3blk m c t = b3arr m c := by
  have e0 : win0_7.index t (0 : Fin 1) = 0 := (small_idx t).2.2.2.2.2.2
  funext y
  show V m c main_arg7 (((cfg0.win 7).blk t).view.emb y) = V m c main_arg7 y
  have h : ((cfg0.win 7).blk t).view.emb y = y := by
    funext a; apply Fin.ext
    match a with
    | ⟨0, _⟩ => show win0_7.index t (0 : Fin 1) * 1 + 1 * (y 0).val = (y 0).val; rw [e0]; omega
  rw [h]

/-! ## What a point leaves, by the kind of point -/

theorem acc_first_at (c : Dev nD) (t : Fin cfg0.N) (h0 : t.val % 8 = 0) (h1 : ¬t.val % 8 = 7) :
    (outsAt0 m c t.val t.isLt).2
      = k0_pay3 (F := Ideal) (xblk m c t) (yblk m c t) (wblk m c t) (k0_pay2 (F := Ideal)) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem acc_mid_at (c : Dev nD) (t : Fin cfg0.N) (h0 : ¬t.val % 8 = 0) (h1 : ¬t.val % 8 = 7) :
    (outsAt0 m c t.val t.isLt).2
      = k0_pay3 (F := Ideal) (xblk m c t) (yblk m c t) (wblk m c t) (outsAt0 m c (t.val - 1) (Nat.lt_of_le_of_lt (Nat.sub_le _ _) t.isLt)).2 := by
  rw [outsAt0_B m c t h0 h1]
  dsimp only
  exact Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

theorem acc_last_at (c : Dev nD) (t : Fin cfg0.N) (h0 : ¬t.val % 8 = 0) (h1 : t.val % 8 = 7) :
    (outsAt0 m c t.val t.isLt).2
      = k0_pay3 (F := Ideal) (xblk m c t) (yblk m c t) (wblk m c t) (outsAt0 m c (t.val - 1) (Nat.lt_of_le_of_lt (Nat.sub_le _ _) t.isLt)).2 := by
  rw [outsAt0_C m c t h0 h1]
  dsimp only
  exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

theorem out_last_at (c : Dev nD) (t : Fin cfg0.N) (h0 : ¬t.val % 8 = 0) (h1 : t.val % 8 = 7) :
    (outsAt0 m c t.val t.isLt).1
      = k0_pay1 (F := Ideal) (k0_pay3 (F := Ideal) (xblk m c t) (yblk m c t) (wblk m c t) (outsAt0 m c (t.val - 1) (Nat.lt_of_le_of_lt (Nat.sub_le _ _) t.isLt)).2)
          (b1blk m c t) (W2blk m c t) (b2blk m c t) (W3blk m c t) (b3blk m c t) := by
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-! ## One tile's contribution, over the arrays -/

theorem tile_term (c : Dev nD) (t : Fin cfg0.N) (r' : Fin 1024) (p : Fin 8) :
    tileFeat (R := 1024) (N := 1024) (D := 512) (xblk m c t) (yblk m c t) (wblk m c t) r' p
      = ∑ n' : Fin 1024, rbf (R := 4096) (N := 8192) (D := 512) (Xarr m c) (Yarr m c) (testRow t r') (tileRow (t.val % 8) (tile_lt t) n')
          * W1arr m c (ix2 (tileRow (t.val % 8) (tile_lt t) n') p) := by
  unfold tileFeat
  refine Finset.sum_congr rfl fun n' _ => ?_
  rw [wblk_apply, rbf_congr (xblk m c t) (yblk m c t) (Xarr m c) (Yarr m c) r' n' (testRow t r')
    (tileRow (t.val % 8) (tile_lt t) n') (fun d => xblk_apply m c t r' d) (fun d => yblk_apply m c t n' d)]

/-- The zero block. -/
theorem zero_block_apply (i : S1024x8.Idx) : k0_pay2 (F := Ideal) i = 0 := by
  unfold k0_pay2
  rw [shapeCast_self]
  exact Ideal.ofBits_zero_f32

/-- A tile takes the partial feature over the first 1024·k train rows to the first 1024·(k + 1). -/
theorem acc_grow (c : Dev nD) (t : Fin cfg0.N) (r' : Fin 1024) (p : Fin 8) (k : ℕ) (hk : k < 8) (hkt : t.val % 8 = k)
    (prev : Vec Ideal S1024x8 .f32)
    (hprev : prev (ix2 r' p) = partFeat (Xarr m c) (Yarr m c) (W1arr m c) (testRow t r') p k) :
    k0_pay3 (F := Ideal) (xblk m c t) (yblk m c t) (wblk m c t) prev (ix2 r' p)
      = partFeat (Xarr m c) (Yarr m c) (W1arr m c) (testRow t r') p (k + 1) := by
  rw [Payload.pay3_apply, hprev, tile_term, partFeat_succ _ _ _ _ _ k hk]
  refine congrArg (partFeat (Xarr m c) (Yarr m c) (W1arr m c) (testRow t r') p k + ·) (Finset.sum_congr rfl fun n' _ => ?_)
  have e : tileRow (t.val % 8) (tile_lt t) n' = tileRow k hk n' := Fin.ext (by simp only [tileRow]; omega)
  rw [e]

/-! ## The accumulator after every point -/

theorem acc_inv (c : Dev nD) : ∀ (n : ℕ) (h : n < cfg0.N) (r' : Fin 1024) (p : Fin 8),
    (outsAt0 m c n h).2 (ix2 r' p) = partFeat (Xarr m c) (Yarr m c) (W1arr m c) (testRow ⟨n, h⟩ r') p (n % 8 + 1)
  | 0, h, r', p => by
    show (outsAt0 m c (⟨0, h⟩ : Fin cfg0.N).val (⟨0, h⟩ : Fin cfg0.N).isLt).2 (ix2 r' p) = _
    rw [acc_first_at m c ⟨0, h⟩ rfl (by show ¬(0 : ℕ) % 8 = 7; decide)]
    exact acc_grow m c ⟨0, h⟩ r' p 0 (by norm_num) rfl _ ((zero_block_apply _).trans (partFeat_zero _ _ _ _ _).symm)
  | n + 1, h, r', p => by
    have hN : cfg0.N = 32 := N_0
    by_cases h0 : (n + 1) % 8 = 0
    · have h1 : ¬(n + 1) % 8 = 7 := by omega
      show (outsAt0 m c (⟨n + 1, h⟩ : Fin cfg0.N).val (⟨n + 1, h⟩ : Fin cfg0.N).isLt).2 (ix2 r' p) = _
      rw [acc_first_at m c ⟨n + 1, h⟩ h0 h1, h0]
      exact acc_grow m c ⟨n + 1, h⟩ r' p 0 (by norm_num) h0 _ ((zero_block_apply _).trans (partFeat_zero _ _ _ _ _).symm)
    · have hrow : testRow ⟨n, Nat.lt_of_succ_lt h⟩ r' = testRow ⟨n + 1, h⟩ r' :=
        Fin.ext (by show 1024 * (n / 8) + r'.val = 1024 * ((n + 1) / 8) + r'.val; omega)
      have hk : n % 8 + 1 = (n + 1) % 8 := by omega
      have ih := acc_inv c n (Nat.lt_of_succ_lt h) r' p
      rw [hrow, hk] at ih
      show (outsAt0 m c (⟨n + 1, h⟩ : Fin cfg0.N).val (⟨n + 1, h⟩ : Fin cfg0.N).isLt).2 (ix2 r' p) = _
      by_cases h1 : (n + 1) % 8 = 7
      · rw [acc_last_at m c ⟨n + 1, h⟩ h0 h1]
        exact acc_grow m c ⟨n + 1, h⟩ r' p ((n + 1) % 8) (Nat.mod_lt _ (by norm_num)) rfl _ ih
      · rw [acc_mid_at m c ⟨n + 1, h⟩ h0 h1]
        exact acc_grow m c ⟨n + 1, h⟩ r' p ((n + 1) % 8) (Nat.mod_lt _ (by norm_num)) rfl _ ih

/-! ## The output block at a last tile -/

theorem out_row (c : Dev nD) (t : Fin cfg0.N) (h1 : t.val % 8 = 7) (r' : Fin 1024) :
    (outsAt0 m c t.val t.isLt).1 (ix2 r' (0 : Fin 1)) = model (Xarr m c) (Yarr m c) (W1arr m c) (b1arr m c) (W2arr m c) (b2arr m c) (W3arr m c) (b3arr m c) (testRow t r') := by
  have h0 : ¬t.val % 8 = 0 := by omega
  rw [out_last_at m c t h0 h1, ← acc_last_at m c t h0 h1, Payload.pay1_apply, b1blk_eq, W2blk_eq, b2blk_eq, W3blk_eq, b3blk_eq]
  unfold model
  refine congrArg (head (b1arr m c) (W2arr m c) (b2arr m c) (W3arr m c) (b3arr m c)) (funext fun p => ?_)
  rw [acc_inv m c t.val t.isLt r' p, h1]
  exact partFeat_all _ _ _ _ _

end Cert.KernelIdeal.Accum

end
-- ==== Proof.Result.lean ====
/-
  The kernel program's result, as one function of its arguments.

  The output column is written back once per block of test rows, after the block's last train tile; the block
  written at point t = 8·i + 7 is rows 1024·i … 1024·i + 1023 of the model's column, and the four blocks cover the
  column.  After the region the program reshapes the [4096, 1] column to a [4096] vector, which reads the column
  at (r, 0).  The arguments are left as they were.
-/
import proofs.«175474_j65481071399956_1_alg».proof.Proof.Accum
import Idealize.ShloMosaic.Lib.StableHlo.Run

noncomputable section

namespace Cert.KernelIdeal.Result

open Cert.KernelIdeal Cert.KernelIdeal.Gen Cert.KernelIdeal.Accum Idealize.ShloMosaic Idealize.ShloMosaic.TcCoe Idealize.SL.Sem
open Idealize.ShloMosaic.ValueIdx RbfMlp
open Idealize.ShloMosaic.Pipeline (Dat)

variable (m : (ℓ : Loc nD τ sig) → Buf (Elt Ideal) ℓ) (ρ : Dev nD → PrngReg)

/-- The model's column: row r at its one column. -/
abbrev outCol (c : Dev nD) : Vec Ideal S4096x1 .f32 := fun i => model (Xarr m c) (Yarr m c) (W1arr m c) (b1arr m c) (W2arr m c) (b2arr m c) (W3arr m c) (b3arr m c) (i 0)

/-- The model's vector. -/
abbrev outVec (c : Dev nD) : Vec Ideal S4096 .f32 := fun i => model (Xarr m c) (Yarr m c) (W1arr m c) (b1arr m c) (W2arr m c) (b2arr m c) (W3arr m c) (b3arr m c) (i 0)

/-- WHAT A LAST TILE WRITES BACK is its block of the model's column. -/
theorem flushed_eq (c : Dev nD) (t : Fin cfg0.N) (hf : (cfg0.win 8).flush t = true) :
    (dats m 0 c).flushed 8 t = ((cfg0.win 8).blk t).view.read (Elt Ideal) (outCol m c) := by
  have h7 : t.val % 8 = 7 := (flush0_8 t).mp hf
  obtain ⟨-, -, -, -, -, -, e0, e1⟩ := moving_idx t
  show (cfg0.win 8).cut (grid0.coords t) ((dats m 0 c).after 8 t) = _
  rw [after0_8]
  have key : ∀ y : S1024x1.Idx, (outsAt0 m c t.val t.isLt).1 y = outCol m c (((cfg0.win 8).blk t).view.emb y) := by
    intro y
    obtain ⟨r', u, rfl⟩ : ∃ (r' : Fin 1024) (u : Fin 1), y = ix2 r' u := ⟨y 0, y 1, eq_ix2 y⟩
    obtain rfl : u = 0 := Subsingleton.elim _ _
    rw [out_row m c t h7 r']
    show model (Xarr m c) (Yarr m c) (W1arr m c) (b1arr m c) (W2arr m c) (b2arr m c) (W3arr m c) (b3arr m c) (testRow t r') = model (Xarr m c) (Yarr m c) (W1arr m c) (b1arr m c) (W2arr m c) (b2arr m c) (W3arr m c) (b3arr m c) ((((cfg0.win 8).blk t).view.emb (ix2 r' (0 : Fin 1))) 0)
    refine congrArg (model (Xarr m c) (Yarr m c) (W1arr m c) (b1arr m c) (W2arr m c) (b2arr m c) (W3arr m c) (b3arr m c)) (Fin.ext ?_)
    show 1024 * (t.val / 8) + r'.val = win0_8.index t (0 : Fin 2) * 1024 + 1 * r'.val
    rw [e0]; omega
  exact funext key

/-- An index of the column is in point t's block iff each coordinate is in the block's range on its axis. -/
theorem mem_blk (t : Fin cfg0.N) (i : S4096x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v0).slice (win0_8.rect t)).set ↔ _
  rw [View.set_slice_whole, Rect.mem_set_unit]
  exact Iff.rfl

/-- Row r of the column is in the block written at the last tile of its block of test rows. -/
theorem cover (i : S4096x1.Idx) : ∃ t : Fin cfg0.N, (cfg0.win 8).flush t = true ∧ i ∈ ((cfg0.win 8).blk t).view.set := by
  have hN : cfg0.N = 32 := N_0
  have hi0 : (i 0).val < 4096 := (i 0).isLt
  have hi1 : (i 1).val < 1 := (i 1).isLt
  let t : Fin cfg0.N := ⟨8 * ((i 0).val / 1024) + 7, by omega⟩
  have ht : t.val = 8 * ((i 0).val / 1024) + 7 := rfl
  obtain ⟨-, -, -, -, -, -, e0, e1⟩ := moving_idx t
  refine ⟨t, (flush0_8 t).mpr (by omega), ?_⟩
  rw [mem_blk]
  intro a
  match a with
  | ⟨0, _⟩ => show win0_8.index t (0 : Fin 2) * 1024 ≤ (i 0).val ∧ (i 0).val < win0_8.index t (0 : Fin 2) * 1024 + 1024; rw [e0]; omega
  | ⟨1, _⟩ => show win0_8.index t (1 : Fin 2) * 1 ≤ (i 1).val ∧ (i 1).val < win0_8.index t (1 : Fin 2) * 1 + 1; rw [e1]; omega

/-- THE COLUMN after the region. -/
theorem final_col (c : Dev nD) : (dats m 0 c).arrAt 8 cfg0.N = outCol m c :=
  (dats m 0 c).arrAt_eq_of_cover 8 (outCol m c) (flushed_eq m c) (cover)

/-- The reshape after the region reads the column at (r, 0). -/
theorem tail_eq (c : Dev nD) :
    Pipeline.afterTail₀ cfgs (dats m) 0 (V0 m) [hostOps1] c main_v1 = outVec m c := by
  unfold Pipeline.afterTail₀
  show StableHlo.after hostOps1 _ (Proc.devRef .tc main_v1) = _
  after_results
  funext i
  obtain ⟨r, rfl⟩ : ∃ r : Fin 4096, i = ix1 r := ⟨i 0, eq_ix1 i⟩
  have e : Pipeline.withArrays (cfgs 0).spec c (V0 m c) (fun w => (dats m 0 c).arrAt w (cfgs 0).N) (Proc.tc.devRef main_v0)
      = outCol m c :=
    (Pipeline.withArrays_arr spec0 launch0.win.arr_inj c _ _ 8).trans (final_col m c)
  show shapeCast S4096 (Pipeline.withArrays (cfgs 0).spec c (V0 m c) (fun w => (dats m 0 c).arrAt w (cfgs 0).N) (Proc.tc.devRef main_v0))
      shapeCasts_S4096x1_S4096 (ix1 r) = _
  rw [e]
  exact shapeCast_apply (outCol m c) shapeCasts_S4096x1_S4096 (ix1 r) (ix2 r (0 : Fin 1))
    (by rewrite [Shape.rowMajor_val_two, Shape.rowMajor_val_one]; show r.val * 1 + 0 = r.val; omega)

/-- The result buffer is unscoped and no window's array, so the region passes it by. -/
theorem result_bypasses : main_v1 ∈ Pipeline.restRefs sig (cfgs 0).spec :=
  Pipeline.mem_restRefs_of main_v1 (by decide) (by decide)

/-- THE RUN, READ: the result at the model's vector, the arguments unchanged. -/
theorem run : θ_run defs (onTc (τ := τ) (main (F := Ideal))) ⟨m, fun _ => 0, ρ⟩ fun r => ∀ c : Dev nD,
      r.2.mem ((c.tc : Thread nD τ).loc main_v1) = outVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v1 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 5).trans (((dats m 0 c).arrAt_in 5 rfl _).trans ((A_eq m c 5).trans (V_main_arg3 m c))),
      ((h c).1 3).trans (((dats m 0 c).arrAt_in 3 rfl _).trans ((A_eq m c 3).trans (V_main_arg4 m c))),
      ((h c).1 6).trans (((dats m 0 c).arrAt_in 6 rfl _).trans ((A_eq m c 6).trans (V_main_arg5 m c))),
      ((h c).1 4).trans (((dats m 0 c).arrAt_in 4 rfl _).trans ((A_eq m c 4).trans (V_main_arg6 m c))),
      ((h c).1 7).trans (((dats m 0 c).arrAt_in 7 rfl _).trans ((A_eq m c 7).trans (V_main_arg7 m c)))⟩)
    (run_main m ρ)

end Cert.KernelIdeal.Result

end
-- ==== Proof.RefValue.lean ====
/-
  The reference program computes the model of Spec.lean, row by row.

  Its stages are read at an index one operation at a time: the two squared-norm columns are row sums of squares
  (the reduce's initial zero adds nothing), the matrix product against the transposed train rows is the rows'
  inner product, so the exponential's argument is the literal −0.001 times the clamped squared distance; the
  product with W1 sums the kernel values over all 8192 train rows; the bias rows are broadcast along the test
  rows; and the final reshape drops the trailing unit axis.
-/
import proofs.«175474_j65481071399956_1_alg».proof.Proof.Gen.ReferenceIdeal.Read
import proofs.«175474_j65481071399956_1_alg».proof.Proof.Spec

noncomputable section

open scoped BigOperators

namespace Cert.ReferenceIdeal.RefValue

open Cert.ReferenceIdeal Cert.ReferenceIdeal.Read Idealize.ShloMosaic Idealize.ShloMosaic.ValueIdx RbfMlp

variable (x0 : (⟨S4096x512, .f32⟩ : BufTy).Contents (Elt Ideal)) (x1 : (⟨S8192x512, .f32⟩ : BufTy).Contents (Elt Ideal))
  (x2 : (⟨S8192x8, .f32⟩ : BufTy).Contents (Elt Ideal)) (x3 : (⟨S8, .f32⟩ : BufTy).Contents (Elt Ideal))
  (x4 : (⟨S8x4, .f32⟩ : BufTy).Contents (Elt Ideal)) (x5 : (⟨S4, .f32⟩ : BufTy).Contents (Elt Ideal))
  (x6 : (⟨S4x1, .f32⟩ : BufTy).Contents (Elt Ideal)) (x7 : (⟨S1, .f32⟩ : BufTy).Contents (Elt Ideal))

/-- Two spellings of one rank-2 index agree coordinate by coordinate. -/
local macro "idx2" : term => `(funext fun a => by match a with | ⟨0, _⟩ => rfl | ⟨1, _⟩ => rfl)
/-- Two spellings of one rank-1 index agree at their coordinate. -/
local macro "idx1" : term => `(funext fun a => by match a with | ⟨0, _⟩ => rfl)

/-- The first reduce is the squared length of a test row. -/
theorem sqn_test (r : Fin 4096) : val_main_v1 (F := Ideal) x0 (ix1 r) = sqn (R := 4096) (D := 512) x0 r := by
  rw [val_main_v1_apply]
  show Ideal.ofBits .f32 0x00000000#32 + _ = _
  rw [Ideal.ofBits_zero_f32, zero_add]
  unfold sqn
  refine Finset.sum_congr rfl fun k _ => ?_
  have e : idx_main_v1 (ix1 r) k = ix2 r k := idx2
  rw [val_main_v0_apply, e]
  rfl

/-- The second reduce is the squared length of a train row. -/
theorem sqn_train (n : Fin 8192) : val_main_v4 (F := Ideal) x1 (ix1 n) = sqn (R := 8192) (D := 512) x1 n := by
  rw [val_main_v4_apply]
  show Ideal.ofBits .f32 0x00000000#32 + _ = _
  rw [Ideal.ofBits_zero_f32, zero_add]
  unfold sqn
  refine Finset.sum_congr rfl fun k _ => ?_
  have e : idx_main_v4 (ix1 n) k = ix2 n k := idx2
  rw [val_main_v3_apply, e]
  rfl

/-- The product with the transposed train rows is the inner product of a test row and a train row. -/
theorem gram_rows (r : Fin 4096) (n : Fin 8192) :
    val_main_v10 (F := Ideal) x0 x1 (ix2 r n) = gram (R := 4096) (N := 8192) (D := 512) x0 x1 r n := by
  rw [val_main_v10_apply]
  unfold gram
  refine Finset.sum_congr rfl fun k _ => ?_
  have e1 : lidx_main_v10 (ix2 r n) k = ix2 r k := idx2
  have e2 : idx_main_v9 (ridx_main_v10 (ix2 r n) k) = ix2 n k := idx2
  rw [val_main_v9_apply, e1, e2]

/-- The exponential stage is the Gaussian kernel of the two rows. -/
theorem rbf_rows (r : Fin 4096) (n : Fin 8192) :
    val_main_v18 (F := Ideal) x0 x1 (ix2 r n) = rbf (R := 4096) (N := 8192) (D := 512) x0 x1 r n := by
  have e6 : idx_main_v2 (idx_main_v6 (ix2 r n)) = ix1 r := idx1
  have e7 : idx_main_v5 (idx_main_v7 (ix2 r n)) = ix1 n := idx1
  rw [val_main_v18_apply, val_main_v17_apply, val_main_v16_apply, val_main_cst_3_apply, val_main_v15_apply,
    val_main_v14_apply, val_main_cst_2_apply, val_main_v13_apply, val_main_v8_apply, val_main_v6_apply,
    val_main_v2_apply, e6, sqn_test, val_main_v7_apply, val_main_v5_apply, e7, sqn_train, val_main_v12_apply,
    val_main_v11_apply, val_main_cst_1_apply, gram_rows]
  rfl

/-- The product with W1 is the feature: the kernel values of a test row against all train rows. -/
theorem feat_rows (r : Fin 4096) (p : Fin 8) :
    val_main_v19 (F := Ideal) x0 x1 x2 (ix2 r p) = tileFeat (R := 4096) (N := 8192) (D := 512) x0 x1 x2 r p := by
  rw [val_main_v19_apply]
  unfold tileFeat
  refine Finset.sum_congr rfl fun k _ => ?_
  have e1 : lidx_main_v19 (ix2 r p) k = ix2 r k := idx2
  have e2 : ridx_main_v19 (ix2 r p) k = ix2 k p := idx2
  rw [e1, e2, rbf_rows]

/-- The first hidden layer. -/
theorem hidden1 (r : Fin 4096) (p : Fin 8) :
    val_main_v23 (F := Ideal) x0 x1 x2 x3 (ix2 r p)
      = Ideal.tanh (tileFeat (R := 4096) (N := 8192) (D := 512) x0 x1 x2 r p + x3 (ix1 p)) := by
  have e : idx_main_v20 (idx_main_v21 (ix2 r p)) = ix1 p := idx1
  rw [val_main_v23_apply, val_main_v22_apply, feat_rows, val_main_v21_apply, val_main_v20_apply, e]
  rfl

/-- The second hidden layer. -/
theorem hidden2 (r : Fin 4096) (q : Fin 4) :
    val_main_v28 (F := Ideal) x0 x1 x2 x3 x4 x5 (ix2 r q)
      = Ideal.tanh ((∑ p : Fin 8, Ideal.tanh (tileFeat (R := 4096) (N := 8192) (D := 512) x0 x1 x2 r p + x3 (ix1 p)) * x4 (ix2 p q))
          + x5 (ix1 q)) := by
  have e : idx_main_v25 (idx_main_v26 (ix2 r q)) = ix1 q := idx1
  rw [val_main_v28_apply, val_main_v27_apply, val_main_v24_apply, val_main_v26_apply, val_main_v25_apply, e]
  have hs : ∑ k : Fin 8, val_main_v23 (F := Ideal) x0 x1 x2 x3 (lidx_main_v24 (ix2 r q) k) * x4 (ridx_main_v24 (ix2 r q) k)
      = ∑ p : Fin 8, Ideal.tanh (tileFeat (R := 4096) (N := 8192) (D := 512) x0 x1 x2 r p + x3 (ix1 p)) * x4 (ix2 p q) := by
    refine Finset.sum_congr rfl fun k _ => ?_
    have e1 : lidx_main_v24 (ix2 r q) k = ix2 r k := idx2
    have e2 : ridx_main_v24 (ix2 r q) k = ix2 k q := idx2
    rw [e1, e2, hidden1]
  rw [hs]
  rfl

/-- The output column, before the reshape. -/
theorem out_col (r : Fin 4096) :
    val_main_v32 (F := Ideal) x0 x1 x2 x3 x4 x5 x6 x7 (ix2 r (0 : Fin 1)) = model x0 x1 x2 x3 x4 x5 x6 x7 r := by
  have e : idx_main_v30 (idx_main_v31 (ix2 r (0 : Fin 1))) = ix1 (0 : Fin 1) := idx1
  rw [val_main_v32_apply, val_main_v29_apply, val_main_v31_apply, val_main_v30_apply, e]
  have hs : ∑ k : Fin 4, val_main_v28 (F := Ideal) x0 x1 x2 x3 x4 x5 (lidx_main_v29 (ix2 r (0 : Fin 1)) k) * x6 (ridx_main_v29 (ix2 r (0 : Fin 1)) k)
      = ∑ q : Fin 4, Ideal.tanh ((∑ p : Fin 8, Ideal.tanh (tileFeat (R := 4096) (N := 8192) (D := 512) x0 x1 x2 r p + x3 (ix1 p)) * x4 (ix2 p q))
          + x5 (ix1 q)) * x6 (ix2 q (0 : Fin 1)) := by
    refine Finset.sum_congr rfl fun k _ => ?_
    have e1 : lidx_main_v29 (ix2 r (0 : Fin 1)) k = ix2 r k := idx2
    have e2 : ridx_main_v29 (ix2 r (0 : Fin 1)) k = ix2 k (0 : Fin 1) := idx2
    rw [e1, e2, hidden2]
  rw [hs]
  rfl

/-- THE REFERENCE'S RESULT: the model at every row. -/
theorem result_eq :
    val_main_v33 (F := Ideal) x0 x1 x2 x3 x4 x5 x6 x7 = fun i => model x0 x1 x2 x3 x4 x5 x6 x7 (i 0) := by
  funext i
  obtain ⟨r, rfl⟩ : ∃ r : Fin 4096, i = ix1 r := ⟨i 0, eq_ix1 i⟩
  have e : idx_main_v33 (ix1 r) = ix2 r (0 : Fin 1) :=
    funext fun a => Fin.ext (by match a with | ⟨0, _⟩ => exact Nat.div_one _ | ⟨1, _⟩ => rfl)
  rw [val_main_v33_apply, e, out_col]

end Cert.ReferenceIdeal.RefValue

end
-- ==== Proof.lean ====
/-
  A pairwise Gaussian-kernel matrix feeding a small tanh network: the kernel program against its reference.

  Both programs compute, for each of the 4096 test rows r,
      out r = Σ_q tanh (Σ_p tanh (Σ_n k(r, n) · W1 n p + b1 p) · W2 p q + b2 q) · W3 q 0 + b3 0,
      k(r, n) = exp (−0.001 · max (|x_r|² + |y_n|² − 2 · ⟨x_r, y_n⟩, 0)),
  over the extended reals (Proof/Spec.lean).  The reference forms the whole 4096 × 8192 kernel matrix and contracts
  it with W1 at once (Proof/RefValue.lean).  The kernel program never forms the matrix: for each block of 1024
  test rows it walks the eight tiles of 1024 train rows, adds each tile's contribution into a [1024, 8]
  accumulator, and after the last tile applies the network and writes the block of outputs back
  (Proof/Pieces.lean, Proof/Payload.lean, Proof/Accum.lean, Proof/Result.lean).  The two agree because a sum over
  the 8192 train rows is the sum of its eight consecutive parts, which holds in any commutative monoid and so on
  the extended reals with no finiteness assumption; the changes of float format inside the kernel program are the
  identity at this instance, and both sides spell the three literals with the same words.
  The idealization rewrote nothing, so `preserves` is trivial; the kernel programs' frames are the generated
  ones, and the reference's frame is its generated run with the result forgotten.
-/
import proofs.«175474_j65481071399956_1_alg».proof.Defs
import proofs.«175474_j65481071399956_1_alg».proof.Proof.Gen.Kernel
import proofs.«175474_j65481071399956_1_alg».proof.Proof.Gen.Kernel.Skeleton
import proofs.«175474_j65481071399956_1_alg».proof.Proof.Gen.Kernel.Launch
import proofs.«175474_j65481071399956_1_alg».proof.Proof.Gen.Kernel.Points
import proofs.«175474_j65481071399956_1_alg».proof.Proof.Gen.Kernel.Frame
import proofs.«175474_j65481071399956_1_alg».proof.Proof.Gen.KernelIdeal
import proofs.«175474_j65481071399956_1_alg».proof.Proof.Gen.KernelIdeal.Skeleton
import proofs.«175474_j65481071399956_1_alg».proof.Proof.Gen.KernelIdeal.Launch
import proofs.«175474_j65481071399956_1_alg».proof.Proof.Gen.KernelIdeal.Points
import proofs.«175474_j65481071399956_1_alg».proof.Proof.Gen.KernelIdeal.Frame
import proofs.«175474_j65481071399956_1_alg».proof.Proof.Gen.ReferenceIdeal
import proofs.«175474_j65481071399956_1_alg».proof.Proof.Gen.Pre_finite_inputs
import proofs.«175474_j65481071399956_1_alg».proof.Proof.Gen.ReferenceIdeal.Run
import proofs.«175474_j65481071399956_1_alg».proof.Proof.Gen.ReferenceIdeal.Read
import proofs.«175474_j65481071399956_1_alg».proof.Proof.Result
import proofs.«175474_j65481071399956_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eight arguments both programs end with the model's vector. -/
theorem algebraic : Cert.algebraic_KernelIdeal_ReferenceIdeal := by
  intro m ρ m' ρ' _ hagree
  refine ⟨fun c => Cert.KernelIdeal.Result.outVec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.ReferenceIdeal.Read.val_main_v33_eq _ _ _ _ _ _ _ _).trans (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
